-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.BinaryDense.lean ====
/-
  A dense layer with binarised weights, on the extended reals.

  A weight `w` is first sent through the hard sigmoid `c = min 1 (max 0 ((w / 1 + 1) / 2))`, which lies in `[0, 1]`,
  then rounded to the nearest integer, ties to even, `r = round c`, and mapped to `1 · (2 · r - 1)`, which is `-1` or `1`.
  One program uses `r` as it is; the other spells the rounding as the straight-through form `c + (r - c)`. On the extended
  reals `c + (r - c) = r` needs `c` to be a real number (at `c = ⊤` the left side is `⊤ + ⊥ = ⊥`), and the clip into
  `[0, 1]` is what gives that, whatever `w` is.

  The layer itself is `out[p, q] = (∑ k, x[p, k] · weight (W[k, q])) + b[q]` over x : [16384, 1024], W : [1024, 1024],
  b : [1024].
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.BinaryDense

/-! ## The three literals -/

/-- The words the programs print for `1.0`, `2.0` and `0.0`, read as extended reals. -/
abbrev lit1 : EReal := Ideal.ofBits .f32 0x3F800000#32
abbrev lit2 : EReal := Ideal.ofBits .f32 0x40000000#32
abbrev lit0 : EReal := Ideal.ofBits .f32 0x00000000#32

theorem lit1_eq : lit1 = 1 := by
  simp [Ideal.ofBits, Ideal.ieee, -EReal.coe_mul]; norm_num

theorem lit0_eq : lit0 = 0 := Ideal.ofBits_zero_f32

/-! ## One weight -/

/-- The hard sigmoid of a weight: `(w / 1 + 1) / 2` clipped into `[0, 1]`. -/
def hardSigmoid (w : EReal) : EReal :=
  min lit1 (max lit0 (Ideal.div (Ideal.div w lit1 + lit1) lit2))

/-- Rounding to the nearest integer, ties to even; the infinities are fixed. -/
def nearest (c : EReal) : EReal := Ideal.liftRound Ideal.roundHalfEven c

/-- The binarised weight, with the rounded value used directly. -/
def weight (w : EReal) : EReal :=
  lit1 * (lit2 * nearest (hardSigmoid w) - lit1)

/-- The binarised weight with the rounding spelt in its straight-through form `c + (round c - c)`. -/
def weightThrough (w : EReal) : EReal :=
  lit1 * (lit2 * (hardSigmoid w + (nearest (hardSigmoid w) - hardSigmoid w)) - lit1)

/-- The clip keeps the hard sigmoid between `0` and `1`. -/
theorem hardSigmoid_mem (w : EReal) : 0 ≤ hardSigmoid w ∧ hardSigmoid w ≤ 1 := by
  unfold hardSigmoid
  rw [lit1_eq, lit0_eq]
  exact ⟨le_min zero_le_one (le_max_left _ _), min_le_left _ _⟩

/-- For a REAL `a`, adding `b - a` back to `a` gives `b`, whatever `b` is. -/
theorem add_sub_cancel_real (a b : EReal) (hb : a ≠ ⊥) (ht : a ≠ ⊤) : a + (b - a) = b := by
  induction a using EReal.rec with
  | bot => exact absurd rfl hb
  | top => exact absurd rfl ht
  | coe a =>
    induction b using EReal.rec with
    | bot => simp
    | top => simp
    | coe b => rw [← EReal.coe_sub, ← EReal.coe_add]; congr 1; ring

/-- The straight-through spelling changes nothing: the hard sigmoid is a real number. -/
theorem weightThrough_eq (w : EReal) : weightThrough w = weight w := by
  unfold weightThrough weight
  obtain ⟨h0, h1⟩ := hardSigmoid_mem w
  rw [add_sub_cancel_real (hardSigmoid w) _
    (ne_of_gt (lt_of_lt_of_le EReal.bot_lt_zero h0))
    (ne_of_lt (lt_of_le_of_lt h1 (EReal.coe_lt_top 1)))]

/-! ## The layer -/

/-- The result at row `p` and column `q`: row `p` of `x` against column `q` of the binarised weights, plus the bias. -/
def denseAt (x : (⟨2, ![16384, 1024]⟩ : Shape).Idx → EReal) (W : (⟨2, ![1024, 1024]⟩ : Shape).Idx → EReal)
    (b : (⟨1, ![1024]⟩ : Shape).Idx → EReal) (p : Fin 16384) (q : Fin 1024) : EReal :=
  (∑ k : Fin 1024, x (ix2 p k) * weight (W (ix2 k q))) + b (ix1 q)

/-- The whole result array. -/
def dense (x : (⟨2, ![16384, 1024]⟩ : Shape).Idx → EReal) (W : (⟨2, ![1024, 1024]⟩ : Shape).Idx → EReal)
    (b : (⟨1, ![1024]⟩ : Shape).Idx → EReal) : (⟨2, ![16384, 1024]⟩ : Shape).Idx → EReal :=
  fun i => denseAt x W b (i 0) (i 1)

end Cert.BinaryDense

end
-- ==== Proof.ReferenceDense.lean ====
/-
  The host program's result, index by index, is the dense layer with binarised weights.

  Its weight array is built entry by entry from `W`: divide by one, add one, halve, clip into `[0, 1]`, round in the
  straight-through form `c + (round c - c)`, double, take one away, multiply by one. That is the weight of
  `Cert.BinaryDense.weightThrough`, which equals `Cert.BinaryDense.weight` because the clipped value is a real number.
  The product with `x` is a sum over the shared axis, and the bias is broadcast along the rows.
-/
import proofs.«114073_j18897856102730_1_alg».proof.Proof.Gen.ReferenceIdeal.Read
import proofs.«114073_j18897856102730_1_alg».proof.Proof.BinaryDense

noncomputable section

open Idealize.ShloMosaic Idealize.ShloMosaic.ValueIdx

namespace Cert.ReferenceIdeal.Dense

open Cert.ReferenceIdeal Cert.ReferenceIdeal.Read Cert.BinaryDense

/-- One entry of the host's weight array is the straight-through weight of the same entry of `W`. -/
theorem weights_apply (W : (⟨S1024x1024, .f32⟩ : BufTy).Contents (Elt Ideal)) (j : S1024x1024.Idx) :
    val_main_v15 (F := Ideal) W j = weightThrough (W j) := by
  simp only [val_main_v15_apply, val_main_v14_apply, val_main_cst_6_apply, val_main_v13_apply, val_main_v12_apply,
    val_main_cst_5_apply, val_main_v11_apply, val_main_v10_apply, val_main_cst_4_apply, val_main_v9_apply,
    val_main_v8_apply, val_main_v7_apply, val_main_v6_apply, val_main_call0_v4_apply, val_main_call0_v3_apply,
    val_main_cst_3_apply, val_main_call0_v2_apply, val_main_call0_v1_apply, val_main_call0_v0_apply,
    val_main_cst_2_apply, val_main_v5_apply, val_main_v4_apply, val_main_cst_1_apply, val_main_v3_apply,
    val_main_v2_apply, val_main_cst_0_apply, val_main_v1_apply, val_main_v0_apply, val_main_cst_apply]
  rfl

/-- The left operand's index at output index `i` and shared coordinate `k` is row `i 0`, column `k`. -/
theorem lidx_eq (i : S16384x1024.Idx) (k : Fin 1024) : lidx_main_v16 i k = ix2 (i 0) k :=
  funext fun a => Fin.ext (by match a with | ⟨0, _⟩ => rfl | ⟨1, _⟩ => rfl)

/-- The right operand's is row `k`, column `i 1`. -/
theorem ridx_eq (i : S16384x1024.Idx) (k : Fin 1024) : ridx_main_v16 i k = ix2 k (i 1) :=
  funext fun a => Fin.ext (by match a with | ⟨0, _⟩ => rfl | ⟨1, _⟩ => rfl)

/-- The bias is read at the output's column. -/
theorem bias_idx_eq (i : S16384x1024.Idx) : idx_main_v17 (idx_main_v18 i) = ix1 (i 1) :=
  funext fun a => Fin.ext (by match a with | ⟨0, _⟩ => rfl)

/-- The host program's result is the dense layer with binarised weights. -/
theorem result_eq (x : (⟨S16384x1024, .f32⟩ : BufTy).Contents (Elt Ideal)) (W : (⟨S1024x1024, .f32⟩ : BufTy).Contents (Elt Ideal))
    (b : (⟨S1024, .f32⟩ : BufTy).Contents (Elt Ideal)) :
    val_main_v19 (F := Ideal) x W b = dense x W b := by
  funext i
  rw [val_main_v19_apply, val_main_v16_apply, val_main_v18_apply, val_main_v17_apply, bias_idx_eq]
  show (∑ k : Fin 1024, x (lidx_main_v16 i k) * val_main_v15 (F := Ideal) W (ridx_main_v16 i k)) + b (ix1 (i 1)) = _
  unfold dense denseAt
  congr 1
  refine Finset.sum_congr rfl fun k _ => ?_
  rw [weights_apply, weightThrough_eq, lidx_eq, ridx_eq]
  rfl

end Cert.ReferenceIdeal.Dense

end
-- ==== Proof.KernelPayload.lean ====
/-
  What the kernel's body stores, read at one entry of its [512, 1024] block.

  The body loads the whole weight array `w`, a block `x` of 512 rows, and the bias as one row `b`. It binarises `w`
  entry by entry (`Cert.BinaryDense.weight`; the two changes of float format are the identity on the extended reals),
  multiplies `x` by the binarised weights into a zero accumulator, and adds the bias row to every row. So entry
  `(p, q)` is `(∑ k, x[p, k] · weight (w[k, q])) + b[0, q]`.
-/
import proofs.«114073_j18897856102730_1_alg».proof.Proof.Gen.KernelIdeal.Skeleton
import proofs.«114073_j18897856102730_1_alg».proof.Proof.BinaryDense
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Dense

open Cert.KernelIdeal Cert.KernelIdeal.Gen Cert.BinaryDense

/-! ## The product's operand indices: rows of the left operand, columns of the right, one shared axis -/

theorem lhs_axis0 (i : S512x1024.Idx) (s : dot_S512x1024_S1024x1024_S512x1024_1_0_0_1_n_n.contr.Idx) :
    (dot_S512x1024_S1024x1024_S512x1024_1_0_0_1_n_n.lhsIdx i s 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_axis1 (i : S512x1024.Idx) (s : dot_S512x1024_S1024x1024_S512x1024_1_0_0_1_n_n.contr.Idx) :
    (dot_S512x1024_S1024x1024_S512x1024_1_0_0_1_n_n.lhsIdx i s 1).val = (s ⟨0, by decide⟩).val :=
  dot_S512x1024_S1024x1024_S512x1024_1_0_0_1_n_n.lhsIdx_val_of_single rfl i s

theorem rhs_axis0 (i : S512x1024.Idx) (s : dot_S512x1024_S1024x1024_S512x1024_1_0_0_1_n_n.contr.Idx) :
    (dot_S512x1024_S1024x1024_S512x1024_1_0_0_1_n_n.rhsIdx i s 0).val = (s ⟨0, by decide⟩).val :=
  dot_S512x1024_S1024x1024_S512x1024_1_0_0_1_n_n.rhsIdx_val_of_single rfl i s

theorem rhs_axis1 (i : S512x1024.Idx) (s : dot_S512x1024_S1024x1024_S512x1024_1_0_0_1_n_n.contr.Idx) :
    (dot_S512x1024_S1024x1024_S512x1024_1_0_0_1_n_n.rhsIdx i s 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, at entry `(p, q)`: the sum over the shared coordinate `k` of the left operand at
    `(p, k)` times the right operand at `(k, q)`. -/
theorem product_apply (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The bias row, cast to its own shape and broadcast along the 512 rows, read at `(p, q)` is the row's entry `q`. -/
theorem bias_apply (b : Vec Ideal S1x1024 .f32) (p : Fin 512) (q : Fin 1024) :
    broadcastTo S512x1024 (shapeCast S1x1024 b shapeCasts_S1x1024_S1x1024) broadcasts_S1x1024_S512x1024 (ix2 p q)
      = b (ix2 (0 : Fin 1) q) := by
  rw [shapeCast_self]
  exact broadcastTo_apply b broadcasts_S1x1024_S512x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The stored block at entry `(p, q)`. -/
theorem payload_apply (w : Vec Ideal S1024x1024 .f32) (x : Vec Ideal S512x1024 .f32) (b : Vec Ideal S1x1024 .f32)
    (p : Fin 512) (q : Fin 1024) :
    k0_pay1 (F := Ideal) w x b (ix2 p q)
      = (∑ k : Fin 1024, x (ix2 p k) * weight (w (ix2 k q))) + b (ix2 (0 : Fin 1) q) := by
  unfold k0_pay1
  refine (ValueIdx.addf_apply _ _ (ix2 p q)).trans ?_
  refine (congrArg₂ (· + ·) (product_apply _ _ p q) (bias_apply b p q)).trans ?_
  rfl

/-- The same at any index of the block, named by its two coordinates. -/
theorem payload_at (w : Vec Ideal S1024x1024 .f32) (x : Vec Ideal S512x1024 .f32) (b : Vec Ideal S1x1024 .f32)
    (y : S512x1024.Idx) :
    k0_pay1 (F := Ideal) w x b y
      = (∑ k : Fin 1024, x (ix2 (y 0) k) * weight (w (ix2 k (y 1)))) + b (ix2 (0 : Fin 1) (y 1)) := by
  obtain ⟨p, q, rfl⟩ : ∃ (p : Fin 512) (q : Fin 1024), y = ix2 p q := ⟨y 0, y 1, eq_ix2 y⟩
  exact payload_apply w x b p q

end Cert.KernelIdeal.Dense

end
-- ==== Proof.KernelDense.lean ====
/-
  The kernel's result array is the dense layer with binarised weights.

  The grid has 32 points. Point `t` is given rows `512 t … 512 t + 511` of `x`, the whole weight array, and the bias as
  one row (the host reshapes the [1024] bias to [1, 1024] before the call), and writes back rows `512 t … 512 t + 511` of
  the result. An entry of the block a point writes is the payload of `Cert.KernelIdeal.Dense.payload_apply` over those
  blocks, which is the layer's entry at the same row and column of the whole arrays. The 32 row blocks tile the result.
-/
import proofs.«114073_j18897856102730_1_alg».proof.Proof.Gen.KernelIdeal.Value
import proofs.«114073_j18897856102730_1_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.KernelIdeal.Value Cert.BinaryDense

variable (m : (ℓ : Loc nD τ sig) → Buf (Elt Ideal) ℓ) (ρ : Dev nD → PrngReg)

theorem hz : (![0, 0] : Fin 2 → Nat) = fun _ => 0 := funext fun a => by fin_cases a <;> rfl

/-! ## The arguments and the result -/

/-- The three argument arrays as launched, as functions of literal index types. -/
abbrev xArr (c : Dev nD) : S16384x1024.Idx → EReal := m ((c : Thread nD τ).loc main_arg0)
abbrev wArr (c : Dev nD) : S1024x1024.Idx → EReal := m ((c : Thread nD τ).loc main_arg1)
abbrev bArr (c : Dev nD) : S1024.Idx → EReal := m ((c : Thread nD τ).loc main_arg2)

/-- The layer of the arguments. -/
def result (c : Dev nD) : S16384x1024.Idx → EReal := dense (xArr m c) (wArr m c) (bArr m c)

/-! ## Where each window's block sits -/

/-- The printed index maps over the 32 points: `x` and the result move down by one block of rows per point; the weights
    and the bias row stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem idx_onto : ∀ r : Fin 32, ∃ t : Fin cfg0.N, win0_3.index t = ![r.val, 0] :=
  (by decide +kernel : ∀ r : Fin 32, ∃ t : Fin grid0.N, win0_3.index t = ![r.val, 0])

/-- Point `t`'s block of `x` is rows `512 t … 512 t + 511`. -/
theorem xblk_apply (c : Dev nD) (t : Fin cfg0.N) (y : S512x1024.Idx) (i : S16384x1024.Idx)
    (h0 : (i 0).val = t.val * 512 + (y 0).val) (h1 : (i 1).val = (y 1).val) :
    (iblk m c 0 t : Vec Ideal S512x1024 .f32) y = xArr m c i := by
  obtain ⟨e0, e1, -⟩ := idx_facts t
  unfold iblk
  rw [View.read_apply]
  show V m c main_arg0 _ = _
  rw [V_main_arg0]
  refine congrArg (xArr m c) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- Every point's block of the weights is the whole weight array. -/
theorem wblk_apply (c : Dev nD) (t : Fin cfg0.N) (y : S1024x1024.Idx) :
    (iblk m c 1 t : Vec Ideal S1024x1024 .f32) y = wArr m c y := by
  obtain ⟨-, -, e0, e1, -⟩ := idx_facts t
  unfold iblk
  rw [View.read_apply]
  show V m c main_arg1 _ = _
  rw [V_main_arg1]
  refine congrArg (wArr m c) (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The row the third window stages is the bias reshaped to one row. -/
theorem bias_row (c : Dev nD) :
    (V m c main_v0 : S1x1024.Idx → EReal) = shapeCast S1x1024 (bArr m c) shapeCasts_S1024_S1x1024 := by
  dsimp only [Gen.V, Gen.hostOps0]; after_results; rfl

/-- Every point's block of that row, at column `q`, is the bias at `q`. -/
theorem bblk_apply (c : Dev nD) (t : Fin cfg0.N) (q : Fin 1024) :
    (iblk m c 2 t : Vec Ideal S1x1024 .f32) (ix2 (0 : Fin 1) q) = bArr m c (ix1 q) := by
  obtain ⟨-, -, -, -, e0, e1, -⟩ := idx_facts t
  unfold iblk
  rw [View.read_apply]
  show V m c main_v0 _ = _
  rw [bias_row]
  refine shapeCast_apply (bArr m c) shapeCasts_S1024_S1x1024 _ (ix1 q) ?_
  rw [Shape.rowMajor_val_one, Shape.rowMajor_val_two]
  show q.val = (win0_2.index t (0 : Fin 2) * 1 + 1 * 0) * 1024 + (win0_2.index t (1 : Fin 2) * 1024 + 1 * q.val)
  rw [e0, e1]; omega

/-! ## What a point writes back -/

/-- Point `t` writes back block `t` of the layer's result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1024x1024) hz, View.ld_unit_zero (S := S512x1024) hz, View.ld_unit_zero (S := S1x1024) hz]
  obtain ⟨-, -, -, -, -, -, e0, e1⟩ := idx_facts t
  funext j
  show k0_pay1 (F := Ideal) (iblk m c 1 t) (iblk m c 0 t) (iblk m c 2 t) ((cfg0.win 3).xinj (grid0.coords t) j)
    = result m c (((cfg0.win 3).blk t).view.emb j)
  have hcol : (((cfg0.win 3).blk t).view.emb j) 1 = ((cfg0.win 3).xinj (grid0.coords t) j) 1 := Fin.ext (by
    show win0_3.index t (1 : Fin 2) * 1024 + 1 * (j 1).val = (j 1).val; rw [e1]; omega)
  have hrow : ((((cfg0.win 3).blk t).view.emb j) 0).val = t.val * 512 + (((cfg0.win 3).xinj (grid0.coords t) j) 0).val := by
    show win0_3.index t (0 : Fin 2) * 512 + 1 * (j 0).val = t.val * 512 + (j 0).val; rw [e0]; omega
  refine (payload_at (iblk m c 1 t) (iblk m c 0 t) (iblk m c 2 t) ((cfg0.win 3).xinj (grid0.coords t) j)).trans ?_
  unfold result dense denseAt
  rw [hcol]
  refine congrArg₂ (· + ·) (Finset.sum_congr rfl fun k _ => ?_) (bblk_apply m c t _)
  exact congrArg₂ (· * ·) (xblk_apply m c t _ _ hrow rfl) (congrArg weight (wblk_apply m c t _))

/-! ## The blocks tile the result -/

/-- An index is in point `t`'s block iff each coordinate is in the block's range on its axis. -/
theorem mem_blk (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- Row `r` is in the block of point `r / 512`. -/
theorem cover (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- So the result array ends holding the layer's result. -/
theorem final (c : Dev nD) : (dats m 0 c).arrAt 3 cfg0.N = result m c :=
  (dats m 0 c).arrAt_eq_of_cover 3 (result m c) (fun t _ => flushed_eq m c t) cover

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Dense

end
-- ==== Proof.lean ====
/-
  A dense layer whose weights are binarised on the fly: `out = x · B(W) + b` with x : [16384, 1024], W : [1024, 1024],
  b : [1024], where `B` sends each weight `w` to `1 · (2 · round (clip01 ((w / 1 + 1) / 2)) - 1)`, rounding to nearest
  with ties to even.

  The kernel runs 32 grid points, each producing 512 rows: it binarises the whole weight array, multiplies its block of
  rows of `x` by it into a zero accumulator (the narrowing of both operands is the identity on the extended reals) and
  adds the bias row. The reference binarises with the rounding written in straight-through form, `c + (round c - c)`, takes
  one product of the whole arrays, and adds the bias broadcast along the rows.

  The two agree index by index on the extended reals. The only algebraic step is `c + (round c - c) = round c`, which holds
  because `c`, clipped into `[0, 1]`, is a real number; no finiteness of the inputs is used. The sums over the shared axis
  are the same sum, term by term.

  Both kernel programs run and keep their arguments by their generated frames; the reference's frame is its run with the
  result dropped. No rewrite was applied in idealising the kernel, so that conjunct is trivially true.
-/
import proofs.«114073_j18897856102730_1_alg».proof.Defs
import proofs.«114073_j18897856102730_1_alg».proof.Proof.Gen.Kernel
import proofs.«114073_j18897856102730_1_alg».proof.Proof.Gen.Kernel.Skeleton
import proofs.«114073_j18897856102730_1_alg».proof.Proof.Gen.Kernel.Launch
import proofs.«114073_j18897856102730_1_alg».proof.Proof.Gen.Kernel.Points
import proofs.«114073_j18897856102730_1_alg».proof.Proof.Gen.Kernel.Frame
import proofs.«114073_j18897856102730_1_alg».proof.Proof.Gen.KernelIdeal
import proofs.«114073_j18897856102730_1_alg».proof.Proof.Gen.KernelIdeal.Skeleton
import proofs.«114073_j18897856102730_1_alg».proof.Proof.Gen.KernelIdeal.Launch
import proofs.«114073_j18897856102730_1_alg».proof.Proof.Gen.KernelIdeal.Points
import proofs.«114073_j18897856102730_1_alg».proof.Proof.Gen.KernelIdeal.Frame
import proofs.«114073_j18897856102730_1_alg».proof.Proof.Gen.ReferenceIdeal
import proofs.«114073_j18897856102730_1_alg».proof.Proof.Gen.Pre_finite_inputs
import proofs.«114073_j18897856102730_1_alg».proof.Proof.Gen.KernelIdeal.Value
import proofs.«114073_j18897856102730_1_alg».proof.Proof.Gen.ReferenceIdeal.Run
import proofs.«114073_j18897856102730_1_alg».proof.Proof.Gen.ReferenceIdeal.Read
import proofs.«114073_j18897856102730_1_alg».proof.Proof.BinaryDense
import proofs.«114073_j18897856102730_1_alg».proof.Proof.ReferenceDense
import proofs.«114073_j18897856102730_1_alg».proof.Proof.KernelPayload
import proofs.«114073_j18897856102730_1_alg».proof.Proof.KernelDense
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the layer's result of those arrays: the kernel's
    32 row blocks tile it, and the reference's weight array differs only in the straight-through spelling of the
    rounding, which changes nothing on a value clipped into `[0, 1]`. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (Cert.ReferenceIdeal.Dense.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
